-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x8192 : Shape := ⟨3, ![4, 2, 8192]⟩
abbrev S4x8192x3 : Shape := ⟨3, ![4, 8192, 3]⟩
abbrev S_ : Shape := ⟨0, ![]⟩

class Facts : Prop where
  bcast_S_S4x2x8192 : S_.BroadcastsInDim S4x2x8192 (![] : Fin 0 → Fin S4x2x8192.rank)
  reducesTo_S4x2x8192_S_d0_1_2 : S4x2x8192.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn {F : FTy → Type} [FloatOps F] (main_arg0 : FVec F S4x2x8192 .f32) (main_arg1 : FVec F S4x8192x3 .f32) : IVec S_ 1 :=
  let main_v0 : FVec F S4x2x8192 .f32 := Host.absf main_arg0
  let main_cst : FVec F S_ .f32 := constant S_ .f32 0x7F800000#32
  let main_v1 : FVec F S4x2x8192 .f32 := broadcastInDim S4x2x8192 ![] bcast_S_S4x2x8192 main_cst
  let main_v2 : IVec S4x2x8192 1 := cmpf .olt main_v0 main_v1
  let main_c : IVec S_ 1 := constantI S_ 1 1#1
  let main_v3 : IVec S_ 1 := (fun x v => Host.reduce IntOp.andi x v reducesTo_S4x2x8192_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x2x8192 : Shape := ⟨3, ![4, 2, 8192]⟩
abbrev S4x8192x3 : Shape := ⟨3, ![4, 8192, 3]⟩
abbrev S4x3x8192 : Shape := ⟨3, ![4, 3, 8192]⟩
abbrev S_ : Shape := ⟨0, ![]⟩
abbrev S4x8192 : Shape := ⟨2, ![4, 8192]⟩
abbrev S4x1x8192 : Shape := ⟨3, ![4, 1, 8192]⟩
abbrev S4x8192x1 : Shape := ⟨3, ![4, 8192, 1]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1x1x1024 : Shape := ⟨3, ![1, 1, 1024]⟩
abbrev S1024x1 : Shape := ⟨2, ![1024, 1]⟩
abbrev S1024x3 : Shape := ⟨2, ![1024, 3]⟩
abbrev S3x1024 : Shape := ⟨2, ![3, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 26
  | .vmem => 11
  | .smem => 0
  | _ => 0

abbrev bufTy : (tb : Table) → Fin (tcTables nBuf tb) → BufTy
  | .hbm, ⟨0, _⟩ => ⟨S4x2x8192, .f32⟩
  | .hbm, ⟨1, _⟩ => ⟨S4x8192x3, .f32⟩
  | .hbm, ⟨2, _⟩ => ⟨S4x3x8192, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x1x8192, .f32⟩
  | .hbm, ⟨9, _⟩ => ⟨S4x2x8192, .f32⟩
  | .hbm, ⟨10, _⟩ => ⟨S4x2x8192, .f32⟩
  | .hbm, ⟨11, _⟩ => ⟨S4x2x8192, .f32⟩
  | .hbm, ⟨12, _⟩ => ⟨S_, .f32⟩
  | .hbm, ⟨13, _⟩ => ⟨S4x8192, .f32⟩
  | .hbm, ⟨14, _⟩ => ⟨S4x1x8192, .f32⟩
  | .hbm, ⟨15, _⟩ => ⟨S4x2x8192, .f32⟩
  | .hbm, ⟨16, _⟩ => ⟨S4x2x8192, .f32⟩
  | .hbm, ⟨17, _⟩ => ⟨S4x1x8192, .f32⟩
  | .hbm, ⟨18, _⟩ => ⟨S4x8192, .f32⟩
  | .hbm, ⟨19, _⟩ => ⟨S4x8192x1, .f32⟩
  | .hbm, ⟨20, _⟩ => ⟨S4x1x8192, .f32⟩
  | .hbm, ⟨21, _⟩ => ⟨S4x8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | _, _ => ⟨S4x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v58 : BitVec 1 := Scalar.cmpi .eq arg2 c7_i32
  let v59 : BitVec 32 := Scalar.extui v58
  let c0_i32_18 : BitVec 32 := 0#32
  let v60 : BitVec 1 := Scalar.cmpi .ne v59 c0_i32_18
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S4x8192x3_S4x3x8192_0_2_1 : S4x8192x3.Transposes [0, 2, 1] S4x3x8192
  reducesTo_S4x2x8192_S4x8192_d1 : S4x2x8192.ReducesTo [1] S4x8192
  h_S_ : 0 < S_.numel
  bcast_S_S4x8192 : S_.BroadcastsInDim S4x8192 (![] : Fin 0 → Fin S4x8192.rank)
  bcast_S4x8192_S4x1x8192_0_2 : S4x8192.BroadcastsInDim S4x1x8192 (![0, 2] : Fin 2 → Fin S4x1x8192.rank)
  bcast_S4x1x8192_S4x2x8192_0_1_2 : S4x1x8192.BroadcastsInDim S4x2x8192 (![0, 1, 2] : Fin 3 → Fin S4x2x8192.rank)
  slices_S4x2x8192_S4x1x8192_0_1_0 : S4x2x8192.Slices ![0, 1, 0] S4x1x8192
  shapeCasts_S4x1x8192_S4x8192 : S4x1x8192.ShapeCasts S4x8192
  bcast_S4x8192_S4x8192x1_0_1 : S4x8192.BroadcastsInDim S4x8192x1 (![0, 1] : Fin 2 → Fin S4x8192x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S1024x1_S1024x1024 : S1024x1.Broadcasts S1024x1024
  broadcasts_S1x1024_S1024x1024 : S1x1024.Broadcasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x1024_S1024 : S1024x1024.Reduces [1] S1024
  shapeCasts_S1024_S1024x1 : S1024.ShapeCasts S1024x1
  shapeCasts_S1024x1_S1x1024x1 : S1024x1.ShapeCasts S1x1024x1
  reducesTo_S4x8192x1_S_d0_1_2 : S4x8192x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x8192.size a
  hwx0_3 : ∀ i : grid0.Coords, EltTy.bits .f32 = 32 ∨ (Rect.block (s := S4x1x8192) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x8192x1.size a
  hwx0_4 : ∀ i : grid0.Coords, EltTy.bits .f32 = 32 ∨ (Rect.block (s := S4x8192x1) S1x1024x1.size (cc0_transform_4 i) (hinb0_4 i)).WholeWords (EltTy.packing .f32)

variable [Facts₀]

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2x8192 : Shape := ⟨3, ![4, 2, 8192]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x2x8192, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x1x8192, .f32⟩
  | .hbm, ⟨7, _⟩ => ⟨S4x8192x8192, .f32⟩
  | .hbm, ⟨8, _⟩ => ⟨S4x8192x8192, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x1x8192, .f32⟩
  | .hbm, ⟨25, _⟩ => ⟨S4x2x8192, .f32⟩
  | .hbm, ⟨26, _⟩ => ⟨S4x2x8192, .f32⟩
  | .hbm, ⟨27, _⟩ => ⟨S4x2x8192, .f32⟩
  | .hbm, ⟨28, _⟩ => ⟨S_, .f32⟩
  | .hbm, ⟨29, _⟩ => ⟨S4x8192, .f32⟩
  | .hbm, ⟨30, _⟩ => ⟨S4x1x8192, .f32⟩
  | .hbm, ⟨31, _⟩ => ⟨S4x2x8192, .f32⟩
  | .hbm, ⟨32, _⟩ => ⟨S4x2x8192, .f32⟩
  | .hbm, ⟨33, _⟩ => ⟨S4x1x8192, .f32⟩
  | .hbm, ⟨34, _⟩ => ⟨S4x8192, .f32⟩
  | .hbm, ⟨35, _⟩ => ⟨S4x8192x1, .f32⟩
  | .hbm, ⟨36, _⟩ => ⟨S4x8192x8192, .f32⟩
  | .hbm, ⟨37, _⟩ => ⟨S4x8192x8192, .f32⟩
  | .hbm, ⟨38, _⟩ => ⟨S4x1x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x2x8192_S4x8192_d1 : S4x2x8192.ReducesTo [1] S4x8192
  bcast_S_S4x8192 : S_.BroadcastsInDim S4x8192 (![] : Fin 0 → Fin S4x8192.rank)
  bcast_S4x1x8192_S4x2x8192_0_1_2 : S4x1x8192.BroadcastsInDim S4x2x8192 (![0, 1, 2] : Fin 3 → Fin S4x2x8192.rank)
  slices_S4x2x8192_S4x1x8192_0_1_0 : S4x2x8192.Slices ![0, 1, 0] S4x1x8192
  shapeCasts_S4x1x8192_S4x8192 : S4x1x8192.ShapeCasts S4x8192
  reducesTo_S4x8192x8192_S_d0_1_2 : S4x8192x8192.ReducesTo [0, 1, 2] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What each case of the body leaves behind, as values.

  The body keeps a column of 1024 running sums in a scratch buffer. At the first column block of a row block it
  stores zeros there and then adds the tile's row sums to what it reads back; at the other column blocks it adds the
  tile's row sums to what the block before left; at the last one it also copies the column out as the output block.
-/
import proofs.«179595_j34067680591909_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle column block: the running sums become what they were plus the tile's row sums. -/
theorem scratch_B (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1024x1 .f32) (harg8 : arg8.IsWhole) (hc0 : ¬cond0_0 i) (hc1 : ¬cond0_1 i) (x0 : Vec F S1x1024x3 .f32) (x1 : Vec F S1x3x1024 .f32) (x2 : Vec F S1x1024x1 .f32) (x3 : Vec F S1x1x1024 .f32) (xs0 : Vec F S1024x1 .f32) :
    sout0_B_0 c i arg3 harg3 arg4 harg4 arg5 harg5 arg6 harg6 arg7 harg7 arg8 harg8 hc0 hc1 x0 x1 x2 x3 xs0 = k0_pay1 (k0_pay4 x0 x1) x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, View.ld_unit_zero (S := S1x1024x3) hz3, View.ld_unit_zero (S := S1x3x1024) hz3, View.ld_unit_zero (S := S1x1024x1) hz3, View.ld_unit_zero (S := S1x1x1024) hz3, View.ld_unit_zero (S := S1024x1) hz2]

/-- The last column block: the running sums likewise, -/
theorem scratch_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 : Vec F S1x1024x3 .f32) (x1 : Vec F S1x3x1024 .f32) (x2 : Vec F S1x1024x1 .f32) (x3 : Vec F S1x1x1024 .f32) (xs0 : Vec F S1024x1 .f32) :
    sout0_C_0 c i arg3 harg3 arg4 harg4 arg5 harg5 arg6 harg6 arg7 harg7 arg8 harg8 hc0 hc1 x0 x1 x2 x3 xs0 = k0_pay1 (k0_pay4 x0 x1) x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, View.ld_unit_zero (S := S1x1024x3) hz3, View.ld_unit_zero (S := S1x3x1024) hz3, View.ld_unit_zero (S := S1x1024x1) hz3, View.ld_unit_zero (S := S1x1x1024) hz3, View.ld_unit_zero (S := S1024x1) hz2]

/-- and the output block is the column of running sums it has just stored, re-laid. -/
theorem out_C (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1024x1 .f32) (harg8 : arg8.IsWhole) (hc0 : ¬cond0_0 i) (hc1 : cond0_1 i) (x0 : Vec F S1x1024x3 .f32) (x1 : Vec F S1x3x1024 .f32) (x2 : Vec F S1x1024x1 .f32) (x3 : Vec F S1x1x1024 .f32) (xs0 : Vec F S1024x1 .f32) :
    out0_C_4 c i arg3 harg3 arg4 harg4 arg5 harg5 arg6 harg6 arg7 harg7 arg8 harg8 hc0 hc1 x0 x1 x2 x3 xs0 = k0_pay2 (k0_pay1 (k0_pay4 x0 x1) x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, View.ld_unit_zero (S := S1x1024x3) hz3, View.ld_unit_zero (S := S1x3x1024) hz3, View.ld_unit_zero (S := S1x1024x1) hz3, View.ld_unit_zero (S := S1x1x1024) hz3, View.ld_unit_zero (S := S1024x1) hz2, View.readCov_unit_zero (S := S1024x1) _ hz2]

/-- The first column block: zeros, then the tile's row sums added to them. -/
theorem scratch_A (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1 .f32) (harg7 : arg7.IsWhole) (arg8 : Memref sig .tc .vmem S1024x1 .f32) (harg8 : arg8.IsWhole) (hc0 : cond0_0 i) (hc1 : ¬cond0_1 i) (x0 : Vec F S1x1024x3 .f32) (x1 : Vec F S1x3x1024 .f32) (x2 : Vec F S1x1024x1 .f32) (x3 : Vec F S1x1x1024 .f32) :
    sout0_A_0 c i arg3 harg3 arg4 harg4 arg5 harg5 arg6 harg6 arg7 harg7 arg8 harg8 hc0 hc1 x0 x1 x2 x3 = k0_pay1 (k0_pay4 x0 x1) x2 x3 (k0_pay3 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg3.read_unread, harg4.read_unread, harg5.read_unread, harg6.read_unread, harg7.read_unread, harg8.read_unread, View.ld_unit_zero (S := S1x1024x3) hz3, View.ld_unit_zero (S := S1x3x1024) hz3, View.ld_unit_zero (S := S1x1024x1) hz3, View.ld_unit_zero (S := S1x1x1024) hz3, View.ld_unit_zero (S := S1024x1) hz2, View.readCov_unit_zero (S := S1024x1) _ hz2]

end Cert.KernelIdeal.Pieces

end
-- ==== Proof.Spec.lean ====
/-
  The quantity both programs compute, written once over the argument arrays.

  For a batch of 4 clouds of 8192 points in space (`p`, the coordinates) with one weight per point (`w`), the
  squared distance of points n and m of cloud b is |p n|² + |p m|² − 2·⟨p n, p m⟩, clamped below at zero before the
  square root; each pair contributes its distance times the two points' weights, and the loss is the sum of the
  contributions over every cloud and every ordered pair, scaled by a constant. The sums are sums in the extended
  reals: a commutative monoid, so any grouping and any order of the summands gives the same total.
-/
import Idealize.ShloMosaic.PureOps.Ideal
import Idealize.ShloMosaic.Lib.ValueIdx

noncomputable section

open scoped BigOperators

namespace Cert.PairLoss

open Idealize.ShloMosaic Idealize.ShloMosaic.ValueIdx

/-- The coordinates: 4 clouds, 8192 points, 3 coordinates. -/
abbrev Pts : Shape := ⟨3, ![4, 8192, 3]⟩
/-- The weights: one per point. -/
abbrev Wts : Shape := ⟨2, ![4, 8192]⟩

/-- |p n|²: the three squares added left to right. -/
def sqn (p : Pts.Idx → EReal) (b : Fin 4) (n : Fin 8192) : EReal :=
  p (ix3 b n (0 : Fin 3)) * p (ix3 b n (0 : Fin 3)) + p (ix3 b n (1 : Fin 3)) * p (ix3 b n (1 : Fin 3))
    + p (ix3 b n (2 : Fin 3)) * p (ix3 b n (2 : Fin 3))

/-- ⟨p n, p m⟩: the three products added left to right. -/
def inner (p : Pts.Idx → EReal) (b : Fin 4) (n m : Fin 8192) : EReal :=
  p (ix3 b n (0 : Fin 3)) * p (ix3 b m (0 : Fin 3)) + p (ix3 b n (1 : Fin 3)) * p (ix3 b m (1 : Fin 3))
    + p (ix3 b n (2 : Fin 3)) * p (ix3 b m (2 : Fin 3))

/-- The distance of points n and m of cloud b: the root of the squared distance clamped at zero (the literals are
    2.0 and 0.0, kept as the words that spell them). -/
def dist (p : Pts.Idx → EReal) (b : Fin 4) (n m : Fin 8192) : EReal :=
  Ideal.sqrt (max (sqn p b n + sqn p b m - Ideal.ofBits .f32 0x40000000#32 * inner p b n m) (Ideal.ofBits .f32 0x00000000#32))

/-- One ordered pair's contribution: its distance times the weight of n, times the weight of m. -/
def term (p : Pts.Idx → EReal) (w : Wts.Idx → EReal) (b : Fin 4) (n m : Fin 8192) : EReal :=
  dist p b n m * w (ix2 b n) * w (ix2 b m)

/-- Point n's row: its contributions against every point m of its cloud. -/
def rowSum (p : Pts.Idx → EReal) (w : Wts.Idx → EReal) (b : Fin 4) (n : Fin 8192) : EReal :=
  ∑ m : Fin 8192, term p w b n m

/-- Every row of every cloud. -/
def total (p : Pts.Idx → EReal) (w : Wts.Idx → EReal) : EReal :=
  ∑ b : Fin 4, ∑ n : Fin 8192, rowSum p w b n

/-- The loss as the tiled program scales it: the total (over the zero the host's sum starts from) times the one
    constant 0.001·2⁻²⁸, spelt by its word. -/
def loss (p : Pts.Idx → EReal) (w : Wts.Idx → EReal) : EReal :=
  Ideal.ofBits .f32 0x2C83126F#32 * (Ideal.ofBits .f32 0x00000000#32 + total p w)

end Cert.PairLoss

end
-- ==== Proof.Tile.lean ====
/-
  One tile of the pairwise sum, written over the blocks the body loads.

  At a grid point the body holds a block of 1024 points as rows (`x0`, [1, 1024, 3]), a block of 1024 points as
  columns (`x1`, [1, 3, 1024]), the row points' weights (`x2`, [1, 1024, 1]) and the column points' weights
  (`x3`, [1, 1, 1024]). Entry (r, c) of the tile is the distance of row point r and column point c times the two
  weights; the body adds a tile's rows up over c and accumulates the row sums over the tiles of a row block.
-/
import proofs.«179595_j34067680591909_1_alg».proof.Proof.Gen.KernelIdeal.Skeleton
import proofs.«179595_j34067680591909_1_alg».proof.Proof.Spec
import Idealize.ShloMosaic.Lib.ValueIdx

noncomputable section

open scoped BigOperators

namespace Cert.KernelIdeal.Tile

open Cert.KernelIdeal Idealize.ShloMosaic Idealize.ShloMosaic.ValueIdx

/-- |row point r|². -/
def sqRow (x0 : S1x1024x3.Idx → EReal) (r : Fin 1024) : EReal :=
  x0 (ix3 (0 : Fin 1) r (0 : Fin 3)) * x0 (ix3 (0 : Fin 1) r (0 : Fin 3)) + x0 (ix3 (0 : Fin 1) r (1 : Fin 3)) * x0 (ix3 (0 : Fin 1) r (1 : Fin 3))
    + x0 (ix3 (0 : Fin 1) r (2 : Fin 3)) * x0 (ix3 (0 : Fin 1) r (2 : Fin 3))

/-- |column point c|². -/
def sqCol (x1 : S1x3x1024.Idx → EReal) (c : Fin 1024) : EReal :=
  x1 (ix3 (0 : Fin 1) (0 : Fin 3) c) * x1 (ix3 (0 : Fin 1) (0 : Fin 3) c) + x1 (ix3 (0 : Fin 1) (1 : Fin 3) c) * x1 (ix3 (0 : Fin 1) (1 : Fin 3) c)
    + x1 (ix3 (0 : Fin 1) (2 : Fin 3) c) * x1 (ix3 (0 : Fin 1) (2 : Fin 3) c)

/-- ⟨row point r, column point c⟩. -/
def dotRC (x0 : S1x1024x3.Idx → EReal) (x1 : S1x3x1024.Idx → EReal) (r c : Fin 1024) : EReal :=
  x0 (ix3 (0 : Fin 1) r (0 : Fin 3)) * x1 (ix3 (0 : Fin 1) (0 : Fin 3) c) + x0 (ix3 (0 : Fin 1) r (1 : Fin 3)) * x1 (ix3 (0 : Fin 1) (1 : Fin 3) c)
    + x0 (ix3 (0 : Fin 1) r (2 : Fin 3)) * x1 (ix3 (0 : Fin 1) (2 : Fin 3) c)

/-- The tile's distance entry. -/
def tileDist (x0 : S1x1024x3.Idx → EReal) (x1 : S1x3x1024.Idx → EReal) (r c : Fin 1024) : EReal :=
  Ideal.sqrt (max (sqRow x0 r + sqCol x1 c - Ideal.ofBits .f32 0x40000000#32 * dotRC x0 x1 r c) (Ideal.ofBits .f32 0x00000000#32))

/-- The tile's weighted entry. -/
def tileTerm (x0 : S1x1024x3.Idx → EReal) (x1 : S1x3x1024.Idx → EReal) (x2 : S1x1024x1.Idx → EReal) (x3 : S1x1x1024.Idx → EReal)
    (r c : Fin 1024) : EReal :=
  tileDist x0 x1 r c * x2 (ix3 (0 : Fin 1) r (0 : Fin 1)) * x3 (ix3 (0 : Fin 1) (0 : Fin 1) c)

end Cert.KernelIdeal.Tile

end
-- ==== Proof.Payload.lean ====
/-
  The body's arithmetic read at an entry (the extended reals): the distance tile, the accumulator's update, the
  reset and the copy-out.
-/
import proofs.«179595_j34067680591909_1_alg».proof.Proof.Gen.KernelIdeal.Skeleton
import proofs.«179595_j34067680591909_1_alg».proof.Proof.Tile
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

section Layout
variable {α : Type}

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- Coordinate k of row point r: the row block with its leading unit axis dropped, cut at column k, read at (r, 0). -/
theorem rowCoord_apply (x0 : Vec Ideal S1x1024x3 .f32) (h : S1x1024x3.ShapeCasts S1024x3) (o : ℕ)
    (hs : S1024x3.Slices ![0, o] S1024x1) (r : Fin 1024) (k : Fin 3) (hk : k.val = o) :
    extractStridedSlice S1024x1 ![0, o] (shapeCast S1024x3 x0 h) hs (ix2 r (0 : Fin 1)) = x0 (ix3 (0 : Fin 1) r k) :=
  (slice2_axis1_apply o (shapeCast S1024x3 x0 h) hs r (0 : Fin 1) k (by rw [hk]; rfl)).trans
    (shapeCast_1ab_ab_apply x0 h r k)

/-- Coordinate k of column point c: the column block with its leading unit axis dropped, cut at row k, read at (0, c). -/
theorem colCoord_apply (x1 : Vec Ideal S1x3x1024 .f32) (h : S1x3x1024.ShapeCasts S3x1024) (o : ℕ)
    (hs : S3x1024.Slices ![o, 0] S1x1024) (c : Fin 1024) (k : Fin 3) (hk : k.val = o) :
    extractStridedSlice S1x1024 ![o, 0] (shapeCast S3x1024 x1 h) hs (ix2 (0 : Fin 1) c) = x1 (ix3 (0 : Fin 1) k c) :=
  (slice2_axis0_apply o (shapeCast S3x1024 x1 h) hs (0 : Fin 1) c k (by rw [hk]; rfl)).trans
    (shapeCast_1ab_ab_apply x1 h k c)

/-- A column of 1024 rows spread over the tile reads its row's entry. -/
theorem spreadCol_apply (v : FVec Ideal S1024x1 .f32) (h : S1024x1.Broadcasts S1024x1024) (r c : Fin 1024) :
    broadcastTo S1024x1024 v h (ix2 r c) = v (ix2 r (0 : Fin 1)) :=
  broadcastTo_a1_ab_apply v h r c

/-- A row of 1024 columns spread over the tile reads its column's entry. -/
theorem spreadRow_apply (v : FVec Ideal S1x1024 .f32) (h : S1x1024.Broadcasts S1024x1024) (r c : Fin 1024) :
    broadcastTo S1024x1024 v h (ix2 r c) = v (ix2 (0 : Fin 1) c) :=
  broadcastTo_1b_ab_apply v h r c

/-- The distance tile at (r, c). -/
theorem dist_apply (x0 : Vec Ideal S1x1024x3 .f32) (x1 : Vec Ideal S1x3x1024 .f32) (r c : Fin 1024) :
    k0_pay4 (F := Ideal) x0 x1 (ix2 r c) = tileDist x0 x1 r c := by
  unfold k0_pay4
  dsimp only [sqrt, maximumf_apply, subf_apply, addf_apply, mulf_apply, broadcast_apply]
  simp only [spreadCol_apply, spreadRow_apply, addf_apply, mulf_apply,
    rowCoord_apply x0 _ 0 _ r (0 : Fin 3) rfl, rowCoord_apply x0 _ 1 _ r (1 : Fin 3) rfl,
    rowCoord_apply x0 _ 2 _ r (2 : Fin 3) rfl, colCoord_apply x1 _ 0 _ c (0 : Fin 3) rfl,
    colCoord_apply x1 _ 1 _ c (1 : Fin 3) rfl, colCoord_apply x1 _ 2 _ c (2 : Fin 3) rfl]
  rfl

/-- The lane sum of a tile at row r is the sum of that row's 1024 entries. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) :=
  (Ideal.multiReduction_add_single src 0x00000000#32 h hφ hacc (ix1 r)).trans
    (Finset.sum_congr rfl fun c _ => congrArg src (funext fun a => Fin.ext (match a with | ⟨0, _⟩ => rfl | ⟨1, _⟩ => rfl)))

/-- The accumulator's update at row r: what it held plus the tile's row sum. -/
theorem acc_apply (x0 : Vec Ideal S1x1024x3 .f32) (x1 : Vec Ideal S1x3x1024 .f32) (x2 : Vec Ideal S1x1024x1 .f32)
    (x3 : Vec Ideal S1x1x1024 .f32) (acc : Vec Ideal S1024x1 .f32) (r : Fin 1024) :
    k0_pay1 (F := Ideal) (k0_pay4 (F := Ideal) x0 x1) x2 x3 acc (ix2 r (0 : Fin 1))
      = acc (ix2 r (0 : Fin 1)) + ∑ c : Fin 1024, tileTerm x0 x1 x2 x3 r c := by
  unfold k0_pay1
  rw [shapeCast_self, addf_apply]
  congr 1
  refine (shapeCast_a_a1_apply _ _ r (0 : Fin 1)).trans ?_
  refine (rowSum_apply _ _ _ _ r).trans ?_
  refine Finset.sum_congr rfl fun c _ => ?_
  rw [mulf_apply, mulf_apply, spreadCol_apply, spreadRow_apply, dist_apply, shapeCast_1ab_ab_apply,
    shapeCast_1ab_ab_apply]
  rfl

/-- The reset stores the zero word's value. -/
theorem zero_apply (r : Fin 1024) :
    k0_pay3 (F := Ideal) (ix2 r (0 : Fin 1)) = Ideal.ofBits .f32 0x00000000#32 := by
  unfold k0_pay3
  rw [shapeCast_self]
  rfl

/-- The copy-out is the accumulator, re-laid as [1, 1024, 1]. -/
theorem out_apply (acc : Vec Ideal S1024x1 .f32) (r : Fin 1024) :
    k0_pay2 (F := Ideal) acc (ix3 (0 : Fin 1) r (0 : Fin 1)) = acc (ix2 r (0 : Fin 1)) := by
  unfold k0_pay2
  exact shapeCast_ab_1ab_apply acc _ (0 : Fin 1) r (0 : Fin 1)

end Cert.KernelIdeal.Tile

end
-- ==== Proof.Blocks.lean ====
/-
  Where the body's blocks sit in the arrays.

  The grid is 4 × 8 × 8: point t works on cloud t / 64, row block (t / 8) % 8 and column block t % 8. Its row blocks
  (the points, their weights, and the output rows) start at row 1024·((t / 8) % 8) of the cloud; its column blocks
  (the transposed points and their weights) at column 1024·(t % 8). The arrays the region finds were written by the
  host lines before it: the transposed points, and the weights laid out as a column and as a row of each cloud.
-/
import proofs.«179595_j34067680591909_1_alg».proof.Proof.Gen.KernelIdeal.Frame
import proofs.«179595_j34067680591909_1_alg».proof.Proof.Tile
import proofs.«179595_j34067680591909_1_alg».proof.Proof.Spec
import Idealize.ShloMosaic.Lib.ValueIdx
import Idealize.ShloMosaic.Lib.Pipeline.Value
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The cloud point t works on. -/
def bOf (t : Fin cfg0.N) : Fin 4 := ⟨t.val / 64, by have := t.isLt; have : cfg0.N = 256 := N_0; omega⟩
/-- Row r of point t's row block, as a point of the cloud. -/
def rowOf (t : Fin cfg0.N) (r : Fin 1024) : Fin 8192 := ⟨1024 * ((t.val / 8) % 8) + r.val, by have := r.isLt; omega⟩
/-- Column c of point t's column block, as a point of the cloud. -/
def colOf (t : Fin cfg0.N) (c : Fin 1024) : Fin 8192 := ⟨1024 * (t.val % 8) + c.val, by have := c.isLt; omega⟩

/-- The points, as launched. -/
abbrev pts (c : Dev nD) : Cert.PairLoss.Pts.Idx → EReal := m ((c.tc : Thread nD τ).loc main_arg1)
/-- The weights, as the host lines before the region leave them. -/
abbrev wts (c : Dev nD) : Cert.PairLoss.Wts.Idx → EReal := V m c main_v13

/-! ## The index maps, decided once over the grid -/

/-- The row points' window: cloud t / 64, row block (t / 8) % 8. -/
theorem idx_rows : ∀ t : Fin cfg0.N, win0_0.index t (0 : Fin 3) = t.val / 64 ∧ win0_0.index t (1 : Fin 3) = (t.val / 8) % 8 ∧ win0_0.index t (2 : Fin 3) = 0 :=
  (by decide +kernel : ∀ t : Fin grid0.N, _)
/-- The column points' window: cloud t / 64, column block t % 8. -/
theorem idx_cols : ∀ t : Fin cfg0.N, win0_1.index t (0 : Fin 3) = t.val / 64 ∧ win0_1.index t (1 : Fin 3) = 0 ∧ win0_1.index t (2 : Fin 3) = t.val % 8 :=
  (by decide +kernel : ∀ t : Fin grid0.N, _)
/-- The row weights' window moves with the row points'. -/
theorem idx_wrows : ∀ t : Fin cfg0.N, win0_2.index t (0 : Fin 3) = t.val / 64 ∧ win0_2.index t (1 : Fin 3) = (t.val / 8) % 8 ∧ win0_2.index t (2 : Fin 3) = 0 :=
  (by decide +kernel : ∀ t : Fin grid0.N, _)
/-- The column weights' window moves with the column points'. -/
theorem idx_wcols : ∀ t : Fin cfg0.N, win0_3.index t (0 : Fin 3) = t.val / 64 ∧ win0_3.index t (1 : Fin 3) = 0 ∧ win0_3.index t (2 : Fin 3) = t.val % 8 :=
  (by decide +kernel : ∀ t : Fin grid0.N, _)
/-- The output window moves with the row points'. -/
theorem idx_out : ∀ t : Fin cfg0.N, win0_4.index t (0 : Fin 3) = t.val / 64 ∧ win0_4.index t (1 : Fin 3) = (t.val / 8) % 8 ∧ win0_4.index t (2 : Fin 3) = 0 :=
  (by decide +kernel : ∀ t : Fin grid0.N, _)

/-! ## A block read off its array: coordinate = block index × block extent + coordinate inside the block -/

/-- The row points' block at t, off any contents A of the points' array: row r is point `rowOf t r` of cloud `bOf t`. -/
theorem rows_read (c : Dev nD) (t : Fin cfg0.N) (A : Buf (Elt Ideal) ((c.tc : Thread nD τ).loc main_arg1)) (r : Fin 1024) (k : Fin 3) :
    (((cfg0.win 0).blk t).view.read (Elt Ideal) A : S1x1024x3.Idx → EReal) (ix3 (0 : Fin 1) r k)
      = (A : S4x8192x3.Idx → EReal) (ix3 (bOf t) (rowOf t r) k) := by
  obtain ⟨e0, e1, e2⟩ := idx_rows t
  rw [View.read_apply]
  refine congrArg (A : S4x8192x3.Idx → EReal) ?_
  funext a
  apply Fin.ext
  match a with
  | ⟨0, _⟩ => show win0_0.index t (0 : Fin 3) * 1 + 1 * 0 = t.val / 64; rw [e0]; omega
  | ⟨1, _⟩ => show win0_0.index t (1 : Fin 3) * 1024 + 1 * r.val = 1024 * ((t.val / 8) % 8) + r.val; rw [e1]; omega
  | ⟨2, _⟩ => show win0_0.index t (2 : Fin 3) * 3 + 1 * k.val = k.val; rw [e2]; omega

/-- The column points' block at t, off any contents A of the transposed points' array: column cc is point `colOf t cc`. -/
theorem cols_read (c : Dev nD) (t : Fin cfg0.N) (A : Buf (Elt Ideal) ((c.tc : Thread nD τ).loc main_v0)) (k : Fin 3) (cc : Fin 1024) :
    (((cfg0.win 1).blk t).view.read (Elt Ideal) A : S1x3x1024.Idx → EReal) (ix3 (0 : Fin 1) k cc)
      = (A : S4x3x8192.Idx → EReal) (ix3 (bOf t) k (colOf t cc)) := by
  obtain ⟨e0, e1, e2⟩ := idx_cols t
  rw [View.read_apply]
  refine congrArg (A : S4x3x8192.Idx → EReal) ?_
  funext a
  apply Fin.ext
  match a with
  | ⟨0, _⟩ => show win0_1.index t (0 : Fin 3) * 1 + 1 * 0 = t.val / 64; rw [e0]; omega
  | ⟨1, _⟩ => show win0_1.index t (1 : Fin 3) * 3 + 1 * k.val = k.val; rw [e1]; omega
  | ⟨2, _⟩ => show win0_1.index t (2 : Fin 3) * 1024 + 1 * cc.val = 1024 * (t.val % 8) + cc.val; rw [e2]; omega

/-- The row weights' block at t, off any contents A of the weights' column array. -/
theorem wrows_read (c : Dev nD) (t : Fin cfg0.N) (A : Buf (Elt Ideal) ((c.tc : Thread nD τ).loc main_v14)) (r : Fin 1024) :
    (((cfg0.win 2).blk t).view.read (Elt Ideal) A : S1x1024x1.Idx → EReal) (ix3 (0 : Fin 1) r (0 : Fin 1))
      = (A : S4x8192x1.Idx → EReal) (ix3 (bOf t) (rowOf t r) (0 : Fin 1)) := by
  obtain ⟨e0, e1, e2⟩ := idx_wrows t
  rw [View.read_apply]
  refine congrArg (A : S4x8192x1.Idx → EReal) ?_
  funext a
  apply Fin.ext
  match a with
  | ⟨0, _⟩ => show win0_2.index t (0 : Fin 3) * 1 + 1 * 0 = t.val / 64; rw [e0]; omega
  | ⟨1, _⟩ => show win0_2.index t (1 : Fin 3) * 1024 + 1 * r.val = 1024 * ((t.val / 8) % 8) + r.val; rw [e1]; omega
  | ⟨2, _⟩ => show win0_2.index t (2 : Fin 3) * 1 + 1 * 0 = 0; rw [e2]

/-- The column weights' block at t, off any contents A of the weights' row array. -/
theorem wcols_read (c : Dev nD) (t : Fin cfg0.N) (A : Buf (Elt Ideal) ((c.tc : Thread nD τ).loc main_v15)) (cc : Fin 1024) :
    (((cfg0.win 3).blk t).view.read (Elt Ideal) A : S1x1x1024.Idx → EReal) (ix3 (0 : Fin 1) (0 : Fin 1) cc)
      = (A : S4x1x8192.Idx → EReal) (ix3 (bOf t) (0 : Fin 1) (colOf t cc)) := by
  obtain ⟨e0, e1, e2⟩ := idx_wcols t
  rw [View.read_apply]
  refine congrArg (A : S4x1x8192.Idx → EReal) ?_
  funext a
  apply Fin.ext
  match a with
  | ⟨0, _⟩ => show win0_3.index t (0 : Fin 3) * 1 + 1 * 0 = t.val / 64; rw [e0]; omega
  | ⟨1, _⟩ => show win0_3.index t (1 : Fin 3) * 1 + 1 * 0 = 0; rw [e1]
  | ⟨2, _⟩ => show win0_3.index t (2 : Fin 3) * 1024 + 1 * cc.val = 1024 * (t.val % 8) + cc.val; rw [e2]; omega

/-! ## The arrays the region finds, as the host lines before it leave them -/

/-- The transposed points: the host transpose of the points as launched. -/
theorem arr_cols (c : Dev nD) :
    (V m c main_v0 : S4x3x8192.Idx → EReal)
      = transpose S4x3x8192 [0, 2, 1] (m ((c.tc : Thread nD τ).loc main_arg1) : S4x8192x3.Idx → EReal) Facts₀.transposes_S4x8192x3_S4x3x8192_0_2_1 := by
  dsimp only [Gen.V, Gen.V0]
  simp only [Gen.hostOps0, List.flatten_cons, List.flatten_nil, List.append_nil, List.cons_append, List.nil_append]
  after_results

/-- The weights as a column of each cloud: the host broadcast of the weights. -/
theorem arr_wrows (c : Dev nD) :
    (V m c main_v14 : S4x8192x1.Idx → EReal)
      = broadcastInDim S4x8192x1 ![0, 1] Facts₀.bcast_S4x8192_S4x8192x1_0_1 (V m c main_v13 : S4x8192.Idx → EReal) := by
  dsimp only [Gen.V, Gen.V0]
  simp only [Gen.hostOps0, List.flatten_cons, List.flatten_nil, List.append_nil, List.cons_append, List.nil_append]
  after_results

/-- The weights as a row of each cloud: the host broadcast of the weights. -/
theorem arr_wcols (c : Dev nD) :
    (V m c main_v15 : S4x1x8192.Idx → EReal)
      = broadcastInDim S4x1x8192 ![0, 2] Facts₀.bcast_S4x8192_S4x1x8192_0_2 (V m c main_v13 : S4x8192.Idx → EReal) := by
  dsimp only [Gen.V, Gen.V0]
  simp only [Gen.hostOps0, List.flatten_cons, List.flatten_nil, List.append_nil, List.cons_append, List.nil_append]
  after_results

/-! ## The four input blocks at a point, entry by entry -/

/-- The row points' block, by its literal type. -/
abbrev xrows (c : Dev nD) (t : Fin cfg0.N) : S1x1024x3.Idx → EReal := iblk m c 0 t
/-- The column points' block, by its literal type. -/
abbrev xcols (c : Dev nD) (t : Fin cfg0.N) : S1x3x1024.Idx → EReal := iblk m c 1 t
/-- The row weights' block, by its literal type. -/
abbrev xwrows (c : Dev nD) (t : Fin cfg0.N) : S1x1024x1.Idx → EReal := iblk m c 2 t
/-- The column weights' block, by its literal type. -/
abbrev xwcols (c : Dev nD) (t : Fin cfg0.N) : S1x1x1024.Idx → EReal := iblk m c 3 t

/-- Row r, coordinate k of the row block is coordinate k of point `rowOf t r`. -/
theorem xrows_at (c : Dev nD) (t : Fin cfg0.N) (r : Fin 1024) (k : Fin 3) :
    xrows m c t (ix3 (0 : Fin 1) r k) = pts m c (ix3 (bOf t) (rowOf t r) k) := by
  show (((cfg0.win 0).blk t).view.read (Elt Ideal) (V m c main_arg1) : S1x1024x3.Idx → EReal) (ix3 (0 : Fin 1) r k) = _
  rw [rows_read c t (V m c main_arg1) r k, V_main_arg1 m c]

/-- Coordinate k, column cc of the column block is coordinate k of point `colOf t cc`: the transpose read back. -/
theorem xcols_at (c : Dev nD) (t : Fin cfg0.N) (k : Fin 3) (cc : Fin 1024) :
    xcols m c t (ix3 (0 : Fin 1) k cc) = pts m c (ix3 (bOf t) (colOf t cc) k) := by
  show (((cfg0.win 1).blk t).view.read (Elt Ideal) (V m c main_v0) : S1x3x1024.Idx → EReal) (ix3 (0 : Fin 1) k cc) = _
  rw [cols_read c t (V m c main_v0) k cc, arr_cols m c]
  exact transpose_apply [0, 2, 1] _ _ (ix3 (bOf t) k (colOf t cc)) (ix3 (bOf t) (colOf t cc) k)
    (fun b => by match b with | ⟨0, _⟩ => rfl | ⟨1, _⟩ => rfl | ⟨2, _⟩ => rfl)

/-- Row r of the row weights' block is the weight of point `rowOf t r`. -/
theorem xwrows_at (c : Dev nD) (t : Fin cfg0.N) (r : Fin 1024) :
    xwrows m c t (ix3 (0 : Fin 1) r (0 : Fin 1)) = wts m c (ix2 (bOf t) (rowOf t r)) := by
  show (((cfg0.win 2).blk t).view.read (Elt Ideal) (V m c main_v14) : S1x1024x1.Idx → EReal) (ix3 (0 : Fin 1) r (0 : Fin 1)) = _
  rw [wrows_read c t (V m c main_v14) r, arr_wrows m c]
  exact broadcastInDim_apply _ _ _ (ix3 (bOf t) (rowOf t r) (0 : Fin 1)) (ix2 (bOf t) (rowOf t r))
    (fun a => by match a with | ⟨0, _⟩ => rfl | ⟨1, _⟩ => rfl)

/-- Column cc of the column weights' block is the weight of point `colOf t cc`. -/
theorem xwcols_at (c : Dev nD) (t : Fin cfg0.N) (cc : Fin 1024) :
    xwcols m c t (ix3 (0 : Fin 1) (0 : Fin 1) cc) = wts m c (ix2 (bOf t) (colOf t cc)) := by
  show (((cfg0.win 3).blk t).view.read (Elt Ideal) (V m c main_v15) : S1x1x1024.Idx → EReal) (ix3 (0 : Fin 1) (0 : Fin 1) cc) = _
  rw [wcols_read c t (V m c main_v15) cc, arr_wcols m c]
  exact broadcastInDim_apply _ _ _ (ix3 (bOf t) (0 : Fin 1) (colOf t cc)) (ix2 (bOf t) (colOf t cc))
    (fun a => by match a with | ⟨0, _⟩ => rfl | ⟨1, _⟩ => rfl)

/-- A tile's entry over any four blocks that read the points and weights at (b, n) and (b, k) is that pair's contribution. -/
theorem term_of_reads (x0 : S1x1024x3.Idx → EReal) (x1 : S1x3x1024.Idx → EReal) (x2 : S1x1024x1.Idx → EReal) (x3 : S1x1x1024.Idx → EReal)
    (p : Cert.PairLoss.Pts.Idx → EReal) (w : Cert.PairLoss.Wts.Idx → EReal) (b : Fin 4) (n k : Fin 8192) (r cc : Fin 1024)
    (h0 : ∀ d : Fin 3, x0 (ix3 (0 : Fin 1) r d) = p (ix3 b n d))
    (h1 : ∀ d : Fin 3, x1 (ix3 (0 : Fin 1) d cc) = p (ix3 b k d))
    (h2 : x2 (ix3 (0 : Fin 1) r (0 : Fin 1)) = w (ix2 b n))
    (h3 : x3 (ix3 (0 : Fin 1) (0 : Fin 1) cc) = w (ix2 b k)) :
    Tile.tileTerm x0 x1 x2 x3 r cc = Cert.PairLoss.term p w b n k := by
  unfold Tile.tileTerm Tile.tileDist Tile.sqRow Tile.sqCol Tile.dotRC
  unfold Cert.PairLoss.term Cert.PairLoss.dist Cert.PairLoss.sqn Cert.PairLoss.inner
  rw [h0 0, h0 1, h0 2, h1 0, h1 1, h1 2, h2, h3]

/-- A tile's entry at point t is the pair's contribution: row point `rowOf t r`, column point `colOf t cc`, cloud `bOf t`. -/
theorem tile_term_at (c : Dev nD) (t : Fin cfg0.N) (r cc : Fin 1024) :
    Tile.tileTerm (iblk m c 0 t) (iblk m c 1 t) (iblk m c 2 t) (iblk m c 3 t) r cc
      = Cert.PairLoss.term (pts m c) (wts m c) (bOf t) (rowOf t r) (colOf t cc) := by
  exact term_of_reads (xrows m c t) (xcols m c t) (xwrows m c t) (xwcols m c t) (pts m c) (wts m c) (bOf t) (rowOf t r) (colOf t cc) r cc
    (fun d => xrows_at m c t r d) (fun d => xcols_at m c t d cc) (xwrows_at m c t r) (xwcols_at m c t cc)

/-- The output window's block at point t, read off any contents of the output array: rows `rowOf t ·` of cloud `bOf t`. -/
theorem out_blk (c : Dev nD) (t : Fin cfg0.N) (G : Buf (Elt Ideal) ((c.tc : Thread nD τ).loc main_v16)) (r : Fin 1024) :
    (((cfg0.win 4).blk t).view.read (Elt Ideal) G : S1x1024x1.Idx → EReal) (ix3 (0 : Fin 1) r (0 : Fin 1))
      = (G : S4x8192x1.Idx → EReal) (ix3 (bOf t) (rowOf t r) (0 : Fin 1)) := by
  obtain ⟨e0, e1, e2⟩ := idx_out t
  rw [View.read_apply]
  refine congrArg (G : S4x8192x1.Idx → EReal) ?_
  funext a
  apply Fin.ext
  match a with
  | ⟨0, _⟩ => show win0_4.index t (0 : Fin 3) * 1 + 1 * 0 = t.val / 64; rw [e0]; omega
  | ⟨1, _⟩ => show win0_4.index t (1 : Fin 3) * 1024 + 1 * r.val = 1024 * ((t.val / 8) % 8) + r.val; rw [e1]; omega
  | ⟨2, _⟩ => show win0_4.index t (2 : Fin 3) * 1 + 1 * 0 = 0; rw [e2]

/-- An entry of the output array is in point t's block iff each coordinate is in the block's range on its axis. -/
theorem mem_out_blk (t : Fin cfg0.N) (i : S4x8192x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v16).slice (win0_4.rect t)).set ↔ _
  rw [View.set_slice_whole, Rect.mem_set_unit]
  exact Iff.rfl

/-- Entry (b, n, 0) lies in the block of the last point of its row block: t = 64·b + 8·(n / 1024) + 7. -/
theorem out_cover_at (i : S4x8192x1.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1 := (i 2).isLt
  have hN : cfg0.N = 256 := N_0
  obtain ⟨t, ht⟩ : ∃ t : Fin cfg0.N, t.val = 64 * (i 0).val + 8 * ((i 1).val / 1024) + 7 := ⟨⟨64 * (i 0).val + 8 * ((i 1).val / 1024) + 7, by omega⟩, rfl⟩
  obtain ⟨e0, e1, e2⟩ := idx_out t
  refine ⟨t, (flush0_4 t).mpr (by omega), ?_⟩
  rw [mem_out_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1 ≤ (i 2).val ∧ (i 2).val < win0_4.index t (2 : Fin 3) * 1 + 1; omega

/-- Every entry of the output array lies in the block of a point that writes its block back. -/
theorem out_cover (c : Dev nD) (i : ((cfg0.win 4).arr.view.loc (c.tc : Thread nD τ)).2.ty.Idx) :
    ∃ t : Fin cfg0.N, (cfg0.win 4).flush t = true ∧ i ∈ ((cfg0.win 4).blk t).view.set := by
  exact out_cover_at i

end Cert.KernelIdeal.Blocks

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Sums.lean ====
/-
  The algebra that joins the tiled sum to the whole one, and the two spellings of the scale.

  * A sum over the index set of a rank-3 array is the triple sum over its coordinates; over an array whose last axis
    has one entry it is the double sum over the first two.
  * A row of 8192 contributions added up tile by tile — 8 tiles of 1024 — is the row's sum.
  * Dividing by 2²⁸ and then multiplying by the single-precision 0.001 is multiplying by the one number
    0.001·2⁻²⁸, on every extended real: the two words have the same significand and exponents 28 apart.
-/
import Idealize.ShloMosaic.PureOps.Ideal
import Idealize.ShloMosaic.Lib.ValueIdx
import proofs.«179595_j34067680591909_1_alg».proof.Proof.LibBlockSums
import proofs.«179595_j34067680591909_1_alg».proof.Proof.Spec

noncomputable section

open scoped BigOperators

namespace Cert.PairLoss

open Idealize.ShloMosaic Idealize.ShloMosaic.ValueIdx Finset

/-! ## Sums over a rank-3 index set -/

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With one entry on the last axis: the double sum over the first two. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  rw [Fin.sum_univ_one]

/-! ## A row added up tile by tile -/

/-- A row's contributions continued by zero past its 8192 entries, so that a tile's entries can be named by a natural. -/
def termN (p : Pts.Idx → EReal) (w : Wts.Idx → EReal) (b : Fin 4) (n : Fin 8192) (k : ℕ) : EReal :=
  if h : k < 8192 then term p w b n ⟨k, h⟩ else 0

theorem termN_of_lt (p : Pts.Idx → EReal) (w : Wts.Idx → EReal) (b : Fin 4) (n : Fin 8192) (k : ℕ) (h : k < 8192) :
    termN p w b n k = term p w b n ⟨k, h⟩ := dif_pos h

/-- Eight tiles of 1024 contributions, added tile after tile, are the row's sum. -/
theorem row_tiles (p : Pts.Idx → EReal) (w : Wts.Idx → EReal) (b : Fin 4) (n : Fin 8192) :
    ∑ s ∈ range 8, ∑ j : Fin 1024, termN p w b n (1024 * s + j.val) = rowSum p w b n := by
  rw [Idealize.ShloMosaic.BlockSums.sum_blocks (termN p w b n) 1024 8, rowSum]
  show ∑ k ∈ range 8192, termN p w b n k = _
  rw [← Fin.sum_univ_eq_sum_range (fun k => termN p w b n k) 8192]
  exact Finset.sum_congr rfl fun m _ => termN_of_lt p w b n m.val m.isLt

/-! ## The totals -/

/-- The tiled program's host sum over its [4, 8192, 1] array of rows is the total. -/
theorem sum_rows (p : Pts.Idx → EReal) (w : Wts.Idx → EReal) (out : (⟨3, ![4, 8192, 1]⟩ : Shape).Idx → EReal)
    (h : ∀ (b : Fin 4) (n : Fin 8192), out (ix3 b n (0 : Fin 1)) = rowSum p w b n) :
    ∑ i, out i = total p w := by
  rw [sum_idx3_unit, total]
  exact Finset.sum_congr rfl fun b _ => Finset.sum_congr rfl fun n _ => h b n

/-- The plain program's sum over all [4, 8192, 8192] contributions is the total. -/
theorem sum_terms (p : Pts.Idx → EReal) (w : Wts.Idx → EReal) (d : (⟨3, ![4, 8192, 8192]⟩ : Shape).Idx → EReal)
    (h : ∀ (b : Fin 4) (n m : Fin 8192), d (ix3 b n m) = term p w b n m) :
    ∑ i, d i = total p w := by
  rw [sum_idx3, total]
  refine Finset.sum_congr rfl fun b _ => Finset.sum_congr rfl fun n _ => ?_
  rw [rowSum]
  exact Finset.sum_congr rfl fun m _ => h b n m

/-! ## The scale -/

/-- The word 0x4D800000 is 2²⁸. -/
theorem ofBits_two_pow_28 : Ideal.ofBits .f32 0x4D800000#32 = ((268435456 : ℝ) : EReal) := by
  simp [Ideal.ofBits, Ideal.ieee, -EReal.coe_mul]; norm_num

/-- The single-precision 0.001: significand 8589935, exponent −33. -/
theorem ofBits_milli : Ideal.ofBits .f32 0x3A83126F#32 = ((8589935 * (2 : ℝ) ^ (-33 : ℤ) : ℝ) : EReal) := by
  simp [Ideal.ofBits, Ideal.ieee, -EReal.coe_mul]

/-- The same significand 28 binary places lower. -/
theorem ofBits_milli_shifted : Ideal.ofBits .f32 0x2C83126F#32 = ((8589935 * (2 : ℝ) ^ (-61 : ℤ) : ℝ) : EReal) := by
  simp [Ideal.ofBits, Ideal.ieee, -EReal.coe_mul]

/-- A quotient by 2²⁸ times 0.001 is the product with 0.001·2⁻²⁸, at the infinities too: only the associativity and
    commutativity of the product are used. -/
theorem scale_eq (T : EReal) :
    Ideal.div T (Ideal.ofBits .f32 0x4D800000#32) * Ideal.ofBits .f32 0x3A83126F#32
      = Ideal.ofBits .f32 0x2C83126F#32 * T := by
  rw [ofBits_two_pow_28, ofBits_milli, ofBits_milli_shifted, Ideal.div_coe (by norm_num : (268435456 : ℝ) ≠ 0),
    mul_assoc, ← EReal.coe_mul, mul_comm T]
  congr 2
  norm_num

end Cert.PairLoss

end
-- ==== Proof.Accum.lean ====
/-
  The running sums, point by point.

  The eight grid points of one row block run one after the other. After the s-th of them the scratch column holds,
  at row r, the zero it was reset to plus the contributions of row point r against the column points of the column
  blocks 0, …, s: each point adds its own tile's row sums to what the point before left, the first one to zeros.
  The point that ends the row block copies the column out as its output block.
-/
import proofs.«179595_j34067680591909_1_alg».proof.Proof.Gen.KernelIdeal.Frame
import proofs.«179595_j34067680591909_1_alg».proof.Proof.Pieces
import proofs.«179595_j34067680591909_1_alg».proof.Proof.Payload
import proofs.«179595_j34067680591909_1_alg».proof.Proof.Blocks
import proofs.«179595_j34067680591909_1_alg».proof.Proof.Sums

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.KernelIdeal.Blocks Cert.PairLoss Finset

variable (m : (ℓ : Loc nD τ sig) → Buf (Elt Ideal) ℓ)

/-- The four input blocks at a point, at their literal types. -/
abbrev xb0 (c : Dev nD) (t : Fin cfg0.N) : Vec Ideal S1x1024x3 .f32 := iblk m c 0 t
abbrev xb1 (c : Dev nD) (t : Fin cfg0.N) : Vec Ideal S1x3x1024 .f32 := iblk m c 1 t
abbrev xb2 (c : Dev nD) (t : Fin cfg0.N) : Vec Ideal S1x1024x1 .f32 := iblk m c 2 t
abbrev xb3 (c : Dev nD) (t : Fin cfg0.N) : Vec Ideal S1x1x1024 .f32 := iblk m c 3 t

/-- The scratch column after point n. -/
abbrev scr (c : Dev nD) (n : ℕ) (h : n < cfg0.N) : Vec Ideal S1024x1 .f32 := (outsAt0 m c n h).2

/-- At the first column block: zeros plus the tile's row sums. -/
theorem scr_first (c : Dev nD) (t : Fin cfg0.N) (h0 : t.val % 8 = 0) :
    scr m c t.val t.isLt
      = k0_pay1 (F := Ideal) (k0_pay4 (F := Ideal) (xb0 m c t) (xb1 m c t)) (xb2 m c t) (xb3 m c t) (k0_pay3 (F := Ideal)) := by
  have h1 : ¬t.val % 8 = 7 := by omega
  show (outsAt0 m c t.val t.isLt).2 = _
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)

/-- At every other column block: what the point before left plus the tile's row sums. -/
theorem scr_next (c : Dev nD) (t : Fin cfg0.N) (h0 : ¬t.val % 8 = 0) :
    scr m c t.val t.isLt
      = k0_pay1 (F := Ideal) (k0_pay4 (F := Ideal) (xb0 m c t) (xb1 m c t)) (xb2 m c t) (xb3 m c t)
          (scr m c (t.val - 1) (Nat.lt_of_le_of_lt (Nat.sub_le _ _) t.isLt)) := by
  show (outsAt0 m c t.val t.isLt).2 = _
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- At the last column block the output block is the scratch column, re-laid. -/
theorem out_last (c : Dev nD) (t : Fin cfg0.N) (h1 : t.val % 8 = 7) :
    (outsAt0 m c t.val t.isLt).1 = k0_pay2 (F := Ideal) (scr m c t.val t.isLt) := by
  have h0 : ¬t.val % 8 = 0 := by omega
  rw [scr_next m c t h0, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- A point's tile, summed along row r: the contributions of row point `rowOf t r` against its column block. -/
theorem tile_row (c : Dev nD) (t : Fin cfg0.N) (r : Fin 1024) :
    ∑ cc : Fin 1024, Tile.tileTerm (xb0 m c t) (xb1 m c t) (xb2 m c t) (xb3 m c t) r cc
      = ∑ cc : Fin 1024, termN (pts m c) (wts m c) (bOf t) (rowOf t r) (1024 * (t.val % 8) + cc.val) :=
  Finset.sum_congr rfl fun cc _ =>
    (tile_term_at m c t r cc).trans (termN_of_lt (pts m c) (wts m c) (bOf t) (rowOf t r) _ (colOf t cc).isLt).symm

/-- THE RUNNING SUM: after point n the scratch column holds, at row r, zero plus the contributions against the column
    blocks 0, …, n % 8 of its row block. -/
theorem scr_apply (c : Dev nD) : ∀ (n : ℕ) (h : n < cfg0.N) (r : Fin 1024),
    scr m c n h (ix2 r (0 : Fin 1))
      = Ideal.ofBits .f32 0x00000000#32
        + ∑ s ∈ range (n % 8 + 1), ∑ cc : Fin 1024,
            termN (pts m c) (wts m c) (bOf ⟨n, h⟩) (rowOf ⟨n, h⟩ r) (1024 * s + cc.val)
  | n, h, r => by
    by_cases h0 : n % 8 = 0
    · rw [show scr m c n h = _ from scr_first m c ⟨n, h⟩ h0, Tile.acc_apply, Tile.zero_apply, tile_row m c ⟨n, h⟩ r]
      show _ + ∑ cc : Fin 1024, termN (pts m c) (wts m c) (bOf ⟨n, h⟩) (rowOf ⟨n, h⟩ r) (1024 * (n % 8) + cc.val) = _
      rw [h0, Finset.sum_range_one]
    · obtain ⟨k, rfl⟩ : ∃ k, n = k + 1 := ⟨n - 1, by omega⟩
      have hk : k < cfg0.N := Nat.lt_of_succ_lt h
      have ih := scr_apply c k hk r
      have eb : bOf ⟨k, hk⟩ = bOf ⟨k + 1, h⟩ := Fin.ext (by show k / 64 = (k + 1) / 64; omega)
      have er : rowOf ⟨k, hk⟩ r = rowOf ⟨k + 1, h⟩ r :=
        Fin.ext (by show 1024 * ((k / 8) % 8) + r.val = 1024 * (((k + 1) / 8) % 8) + r.val; omega)
      rw [show scr m c (k + 1) h = _ from scr_next m c ⟨k + 1, h⟩ h0, Tile.acc_apply, tile_row m c ⟨k + 1, h⟩ r]
      show scr m c k hk (ix2 r (0 : Fin 1))
          + ∑ cc : Fin 1024, termN (pts m c) (wts m c) (bOf ⟨k + 1, h⟩) (rowOf ⟨k + 1, h⟩ r) (1024 * ((k + 1) % 8) + cc.val) = _
      rw [ih, eb, er, show (k + 1) % 8 = k % 8 + 1 from by omega, Finset.sum_range_succ _ (k % 8 + 1), add_assoc]

/-- So at the point that ends a row block (n % 8 = 7) row r holds zero plus the whole row's sum. -/
theorem scr_last (c : Dev nD) (t : Fin cfg0.N) (h1 : t.val % 8 = 7) (r : Fin 1024) :
    scr m c t.val t.isLt (ix2 r (0 : Fin 1))
      = Ideal.ofBits .f32 0x00000000#32 + rowSum (pts m c) (wts m c) (bOf t) (rowOf t r) := by
  rw [scr_apply m c t.val t.isLt r, h1]
  exact congrArg (_ + ·) (row_tiles (pts m c) (wts m c) (bOf t) (rowOf t r))

end Cert.KernelIdeal.Accum

end
-- ==== Proof.Rows.lean ====
/-
  The output array after the region: every row's sum.

  Only the point that ends a row block writes its output block back, and what it writes is the scratch column: row r
  of the block is zero plus the whole row sum of row point r of that row block. The 32 row blocks tile the
  [4, 8192, 1] array, so the array ends holding, at (b, n, 0), zero plus the row sum of point n of cloud b.
-/
import proofs.«179595_j34067680591909_1_alg».proof.Proof.Gen.KernelIdeal.Frame
import proofs.«179595_j34067680591909_1_alg».proof.Proof.Accum
import Idealize.ShloMosaic.Lib.Pipeline.Value

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Cert.KernelIdeal.Blocks Cert.PairLoss
open Idealize.ShloMosaic.Pipeline (Dat)

variable (m : (ℓ : Loc nD τ sig) → Buf (Elt Ideal) ℓ)

/-- The array of row sums: at (b, n, 0), zero plus point n's row sum in cloud b. -/
def rows (c : Dev nD) : S4x8192x1.Idx → EReal := fun i =>
  Ideal.ofBits .f32 0x00000000#32 + rowSum (pts m c) (wts m c) ⟨(i 0).val, (i 0).isLt⟩ ⟨(i 1).val, (i 1).isLt⟩

/-- What a flushing point writes back is its block of the array of row sums. -/
theorem flushed_eq (c : Dev nD) (t : Fin cfg0.N) (hf : (cfg0.win 4).flush t = true) :
    (dats m 0 c).flushed 4 t = ((cfg0.win 4).blk t).view.read (Elt Ideal) (rows m c) := by
  have h1 : t.val % 8 = 7 := (flush0_4 t).mp hf
  show (cfg0.win 4).cut (grid0.coords t) ((dats m 0 c).after 4 t) = _
  rw [after0_4, Accum.out_last m c t h1]
  refine funext fun (y : S1x1024x1.Idx) => ?_
  obtain ⟨a, r, b, rfl⟩ : ∃ (a : Fin 1) (r : Fin 1024) (b : Fin 1), y = ix3 a r b := ⟨y 0, y 1, y 2, eq_ix3 y⟩
  obtain rfl : a = 0 := Subsingleton.elim _ _
  obtain rfl : b = 0 := Subsingleton.elim _ _
  show k0_pay2 (F := Ideal) (Accum.scr m c t.val t.isLt) (ix3 (0 : Fin 1) r (0 : Fin 1))
    = (((cfg0.win 4).blk t).view.read (Elt Ideal) (rows m c) : S1x1024x1.Idx → EReal) (ix3 (0 : Fin 1) r (0 : Fin 1))
  rw [Tile.out_apply, Accum.scr_last m c t h1 r, Blocks.out_blk c t (rows m c) r]
  rfl

/-- So the output array ends holding the row sums. -/
theorem final_rows (c : Dev nD) : (dats m 0 c).arrAt 4 cfg0.N = rows m c :=
  (dats m 0 c).arrAt_eq_of_cover 4 (rows m c) (flushed_eq m c) (Blocks.out_cover c)

end Cert.KernelIdeal.Rows

end
-- ==== Proof.KernelValue.lean ====
/-
  The tiled program's result.

  After the region the host adds up the [4, 8192, 1] array of row sums from zero and multiplies the total by the
  constant 0.001·2⁻²⁸. Each row of the array is zero plus a row sum, and the zero word denotes 0, so the host's sum is
  zero plus the total over every cloud and ordered pair: the program's result is the loss of the points and the
  weights it was launched with.
-/
import proofs.«179595_j34067680591909_1_alg».proof.Proof.Gen.KernelIdeal.Frame
import proofs.«179595_j34067680591909_1_alg».proof.Proof.Rows
import proofs.«179595_j34067680591909_1_alg».proof.Proof.Sums
import Idealize.ShloMosaic.Lib.Pipeline.Value
import Idealize.ShloMosaic.Lib.StableHlo.Run
import Idealize.ShloMosaic.PureOps.Ideal.Laws

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.KernelIdeal.Blocks Cert.KernelIdeal.Rows Cert.PairLoss
open Idealize.ShloMosaic.Pipeline (Dat)

variable (m : (ℓ : Loc nD τ sig) → Buf (Elt Ideal) ℓ) (ρ : Dev nD → PrngReg)

/-- A row of the array is its row sum: the zero it started from denotes 0. -/
theorem rows_apply (c : Dev nD) (b : Fin 4) (n : Fin 8192) :
    rows m c (ix3 b n (0 : Fin 1)) = rowSum (pts m c) (wts m c) b n := by
  show Ideal.ofBits .f32 0x00000000#32 + rowSum (pts m c) (wts m c) b n = _
  rw [Ideal.ofBits_zero_f32, zero_add]

/-- The host lines after the region leave the loss in the result buffer. -/
theorem tail_value (c : Dev nD) :
    Pipeline.afterTail₀ cfgs (dats m) 0 (V0 m) [hostOps1] c main_v18 = fun _ => loss (pts m c) (wts m c) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v16)
      = rows m c :=
    (Pipeline.withArrays_arr spec0 launch0.win.arr_inj c (V0 m c) (fun w => (dats m 0 c).arrAt w cfg0.N) 4).trans (final_rows m c)
  rw [e]
  funext i
  show Ideal.ofBits .f32 0x2C83126F#32
      * Host.reduceAdd (F := Ideal) (rows m c) (constant S_ .f32 0x00000000#32) reducesTo_S4x8192x1_S_d0_1_2 h_S_ i = _
  simp only [Host.reduceAdd, Ideal.hostReduceAdd_def]
  rw [Ideal.hostReduceAdd_total reducesTo_S4x8192x1_S_d0_1_2 (fun b => b.elim0) (rows m c) _ i,
    sum_rows (pts m c) (wts m c) (rows m c) (rows_apply m c)]
  rfl

/-- THE RUN, READ: every weakly fair execution ends with the result buffer at the loss and the arguments as launched. -/
theorem run : θ_run defs (onTc (τ := τ) (main (F := Ideal))) ⟨m, fun _ => 0, ρ⟩ fun r => ∀ c : Dev nD,
      r.2.mem ((c.tc : Thread nD τ).loc main_v18) = (fun _ => loss (pts m c) (wts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.Result

end
-- ==== Proof.RefSide.lean ====
/-
  The plain program's result as the total of the contributions, read stage by stage from the generated reads:
  a point's squared norm, a pair's inner product, a pair's contribution, and then the sum over every index.
-/
import proofs.«179595_j34067680591909_1_alg».proof.Defs
import proofs.«179595_j34067680591909_1_alg».proof.Proof.Gen.ReferenceIdeal.Run
import proofs.«179595_j34067680591909_1_alg».proof.Proof.Gen.ReferenceIdeal.Read
import proofs.«179595_j34067680591909_1_alg».proof.Proof.Spec
import proofs.«179595_j34067680591909_1_alg».proof.Proof.Sums

noncomputable section

open scoped BigOperators

namespace Cert.ReferenceIdeal.PairRef

open Cert.ReferenceIdeal Cert.ReferenceIdeal.Read Idealize.ShloMosaic Idealize.ShloMosaic.ValueIdx

/-- The plain program's squared norm of point n of cloud b — its sum over the three coordinates, started at the
    zero word — is the three squares added left to right. -/
theorem sq_at (x1 : (⟨S4x8192x3, .f32⟩ : BufTy).Contents (Elt Ideal)) (b : Fin 4) (n : Fin 8192) :
    val_main_v1 (F := Ideal) x1 (ix2 b n) = Cert.PairLoss.sqn x1 b n := by
  have e : ∀ k : Fin 3, idx_main_v1 (ix2 b n) k = ix3 b n k := fun k =>
    funext fun a => Fin.ext (by match a with | ⟨0, _⟩ => rfl | ⟨1, _⟩ => rfl | ⟨2, _⟩ => rfl)
  rw [val_main_v1_apply, Fin.sum_univ_three, e 0, e 1, e 2, val_main_cst_apply, val_main_v0_apply, val_main_v0_apply,
    val_main_v0_apply, Ideal.ofBits_def, Ideal.ofBits_zero_f32, zero_add]
  rfl

/-- The plain program's contraction over the coordinate axis, read at the pair (n, m) of cloud b, is the inner
    product of the two points. -/
theorem inner_at (x1 : (⟨S4x8192x3, .f32⟩ : BufTy).Contents (Elt Ideal)) (b : Fin 4) (n m : Fin 8192) :
    val_main_v7 (F := Ideal) x1 (ix3 b n m) = Cert.PairLoss.inner x1 b n m := by
  have el : ∀ k : Fin 3, lidx_main_v7 (ix3 b n m) k = ix3 b n k := fun k =>
    funext fun a => Fin.ext (by match a with | ⟨0, _⟩ => rfl | ⟨1, _⟩ => rfl | ⟨2, _⟩ => rfl)
  have er : ∀ k : Fin 3, ridx_main_v7 (ix3 b n m) k = ix3 b m k := fun k =>
    funext fun a => Fin.ext (by match a with | ⟨0, _⟩ => rfl | ⟨1, _⟩ => rfl | ⟨2, _⟩ => rfl)
  rw [val_main_v7_apply, Fin.sum_univ_three, el 0, el 1, el 2, er 0, er 1, er 2]
  rfl

/-- The entry of the plain program's [4, 8192, 8192] array of contributions at (b, n, m) is the pair's contribution:
    the row broadcast reads point n, the column broadcast reads point m, for the squared norms and for the weights alike. -/
theorem term_at (x0 : (⟨S4x2x8192, .f32⟩ : BufTy).Contents (Elt Ideal)) (x1 : (⟨S4x8192x3, .f32⟩ : BufTy).Contents (Elt Ideal))
    (b : Fin 4) (n m : Fin 8192) :
    val_main_v32 (F := Ideal) x0 x1 (ix3 b n m) = Cert.PairLoss.term x1 (val_main_v26 (F := Ideal) x0) b n m := by
  have erow : idx_main_v2 (idx_main_v4 (ix3 b n m)) = ix2 b n :=
    funext fun a => Fin.ext (by match a with | ⟨0, _⟩ => rfl | ⟨1, _⟩ => rfl)
  have ecol : idx_main_v3 (idx_main_v5 (ix3 b n m)) = ix2 b m :=
    funext fun a => Fin.ext (by match a with | ⟨0, _⟩ => rfl | ⟨1, _⟩ => rfl)
  have wrow : idx_main_v27 (idx_main_v28 (ix3 b n m)) = ix2 b n :=
    funext fun a => Fin.ext (by match a with | ⟨0, _⟩ => rfl | ⟨1, _⟩ => rfl)
  have wcol : idx_main_v30 (idx_main_v31 (ix3 b n m)) = ix2 b m :=
    funext fun a => Fin.ext (by match a with | ⟨0, _⟩ => rfl | ⟨1, _⟩ => rfl)
  rw [val_main_v32_apply, val_main_v29_apply, val_main_v13_apply, val_main_v12_apply, val_main_v10_apply,
    val_main_v6_apply, val_main_v4_apply, val_main_v2_apply, erow, sq_at,
    val_main_v5_apply, val_main_v3_apply, ecol, sq_at,
    val_main_v9_apply, val_main_v8_apply, val_main_cst_0_apply, inner_at,
    val_main_v11_apply, val_main_cst_1_apply,
    val_main_v28_apply, val_main_v27_apply, wrow,
    val_main_v31_apply, val_main_v30_apply, wcol,
    Ideal.mulf_def, Ideal.mulf_def, Ideal.mulf_def, Ideal.hostUnary_sqrt_def, Ideal.maximumf_def, Ideal.subf_def,
    Ideal.addf_def, Ideal.ofBits_def, Ideal.ofBits_def]
  rfl

/-- The plain program's result: the total over every cloud and ordered pair (from the zero its sum starts at),
    divided by 2²⁸, times the single-precision 0.001 — the weights being its own softmax stage. -/
theorem ref_value (x0 : (⟨S4x2x8192, .f32⟩ : BufTy).Contents (Elt Ideal)) (x1 : (⟨S4x8192x3, .f32⟩ : BufTy).Contents (Elt Ideal)) :
    val_main_v35 (F := Ideal) x0 x1
      = fun _ => Ideal.div (Ideal.ofBits .f32 0x00000000#32 + Cert.PairLoss.total x1 (val_main_v26 (F := Ideal) x0))
          (Ideal.ofBits .f32 0x4D800000#32) * Ideal.ofBits .f32 0x3A83126F#32 := by
  funext i
  rw [val_main_v35_apply, val_main_v34_apply, val_main_v33_apply, val_main_cst_5_apply, val_main_cst_6_apply,
    val_main_cst_7_apply,
    Cert.PairLoss.sum_terms x1 (val_main_v26 (F := Ideal) x0) (val_main_v32 (F := Ideal) x0 x1) (term_at x0 x1),
    Ideal.mulf_def, Ideal.hostDivf_def, Ideal.ofBits_def, Ideal.ofBits_def, Ideal.ofBits_def]

end Cert.ReferenceIdeal.PairRef

end
-- ==== Proof.lean ====
/-
  The certificate: a pairwise-distance loss computed tile by tile equals the same loss computed whole.

  The loss is the sum, over 4 clouds of 8192 points and every ordered pair (n, m) of a cloud, of the distance of the
  two points times their weights (the second class of a softmax over two logits), scaled. The plain program forms
  the whole [4, 8192, 8192] array of contributions, sums it, divides by 2²⁸ and multiplies by 0.001. The tiled program
  walks a 4 × 8 × 8 grid of 1024 × 1024 tiles: it keeps a column of 1024 running row sums, reset at the first tile of
  a row block, written out after the last, and the host sums the [4, 8192, 1] array of row sums and multiplies by the
  single constant 0.001·2⁻²⁸.

  Over the extended reals the two are one number:
  * entry for entry a tile's contribution is the pair's contribution (the squared norms and the inner product are the
    same three-term sums; clamp, root and the two weight factors come in the same order);
  * the row sums accumulated tile after tile, and then summed over the rows, are the one sum over all pairs — sums in
    a commutative monoid, regrouped;
  * the two words for 0.001 and 0.001·2⁻²⁸ have one significand and exponents 28 apart, and a quotient by 2²⁸ followed
    by a product is a product with the one constant, by associativity and commutativity alone — at the infinities too,
    so no finiteness of the inputs is used;
  * the weights are the same composition of host operations in both programs.
  The frames of the two kernel programs are the generated ones; the plain program's frame is its generated run. The
  ideal pass rewrote nothing, so the idealization claim is trivial.
-/
import proofs.«179595_j34067680591909_1_alg».proof.Defs
import proofs.«179595_j34067680591909_1_alg».proof.Proof.Gen.Kernel
import proofs.«179595_j34067680591909_1_alg».proof.Proof.Gen.Kernel.Skeleton
import proofs.«179595_j34067680591909_1_alg».proof.Proof.Gen.Kernel.Launch
import proofs.«179595_j34067680591909_1_alg».proof.Proof.Gen.Kernel.Points
import proofs.«179595_j34067680591909_1_alg».proof.Proof.Gen.Kernel.Frame
import proofs.«179595_j34067680591909_1_alg».proof.Proof.Gen.KernelIdeal
import proofs.«179595_j34067680591909_1_alg».proof.Proof.Gen.KernelIdeal.Skeleton
import proofs.«179595_j34067680591909_1_alg».proof.Proof.Gen.KernelIdeal.Launch
import proofs.«179595_j34067680591909_1_alg».proof.Proof.Gen.KernelIdeal.Points
import proofs.«179595_j34067680591909_1_alg».proof.Proof.Gen.KernelIdeal.Frame
import proofs.«179595_j34067680591909_1_alg».proof.Proof.Gen.ReferenceIdeal
import proofs.«179595_j34067680591909_1_alg».proof.Proof.Gen.ReferenceIdeal.Run
import proofs.«179595_j34067680591909_1_alg».proof.Proof.Gen.ReferenceIdeal.Read
import proofs.«179595_j34067680591909_1_alg».proof.Proof.Gen.Pre_finite_inputs
import proofs.«179595_j34067680591909_1_alg».proof.Proof.KernelValue
import proofs.«179595_j34067680591909_1_alg».proof.Proof.RefSide
import proofs.«179595_j34067680591909_1_alg».proof.Proof.Sums
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem Idealize.ShloMosaic.StableHlo

/-- The weights the tiled program's region finds are the plain program's softmax stage of the same logits: the host
    lines that compute them are the same operations in the same order. -/
theorem weights_eq (m : (ℓ : Loc Cert.KernelIdeal.nD Cert.KernelIdeal.τ Cert.KernelIdeal.sig) → Buf (Elt Ideal) ℓ)
    (c : Dev Cert.KernelIdeal.nD) :
    Cert.KernelIdeal.Blocks.wts m c
      = Cert.ReferenceIdeal.Read.val_main_v26 (F := Ideal)
          (m ((c.tc : Thread Cert.KernelIdeal.nD Cert.KernelIdeal.τ).loc Cert.KernelIdeal.main_arg0)) := by
  show Cert.KernelIdeal.Gen.V m c Cert.KernelIdeal.main_v13 = _
  dsimp only [Cert.KernelIdeal.Gen.V, Cert.KernelIdeal.Gen.V0]
  simp only [Cert.KernelIdeal.Gen.hostOps0, List.flatten_cons, List.flatten_nil, List.append_nil, List.cons_append,
    List.nil_append]
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the launched points and weights: the tiled one by its run read back, the plain one
    by its generated run, whose quotient-then-product is the product with the one constant. -/
theorem algebraic : Cert.algebraic_KernelIdeal_ReferenceIdeal := by
  intro m ρ m' ρ' _ hagree
  refine ⟨fun c => (fun _ => Cert.PairLoss.loss (Cert.KernelIdeal.Blocks.pts m c) (Cert.KernelIdeal.Blocks.wts m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.PairRef.ref_value, (hagree c).1, (hagree c).2,
    ← weights_eq m c]
  funext i
  exact Cert.PairLoss.scale_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
